-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v0_0)) (v1 : (c : Dev Cert.KernelIdeal.nD) → Buf (Elt Ideal) ((c.tc : Thread Cert.KernelIdeal.nD Cert.KernelIdeal.τ).loc Cert.KernelIdeal.main_v0_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0_0) = v0 c
          ∧ r.2.mem ((c.tc : Thread Cert.KernelIdeal.nD Cert.KernelIdeal.τ).loc Cert.KernelIdeal.main_v0_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v9) = v0 c
          ∧ r.2.mem ((c.tc : Thread Cert.ReferenceIdeal.nD Cert.ReferenceIdeal.τ).loc Cert.ReferenceIdeal.main_v14) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S50000x32x64 : Shape := ⟨3, ![50000, 32, 64]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S50000x32x64 : S_.BroadcastsInDim S50000x32x64 (![] : Fin 0 → Fin S50000x32x64.rank)
  reducesTo_S50000x32x64_S_d0_1_2 : S50000x32x64.ReducesTo [0, 1, 2] S_

variable [Facts]

def fn_part1 {F : FTy → Type} [FloatOps F] (main_v13 : IVec S_ 1) (main_v16 : IVec S50000x32x64 1) : IVec S_ 1 :=
  let main_c_5 : IVec S_ 1 := constantI S_ 1 1#1
  let main_v17 : IVec S_ 1 := (fun x v => Host.reduce IntOp.andi x v reducesTo_S50000x32x64_S_d0_1_2 h_S_) main_v16 main_c_5
  let main_v18 : IVec S_ 1 := andi main_v13 main_v17
  main_v18

def fn {F : FTy → Type} [FloatOps F] (main_arg0 : FVec F S50000x64 .f32) (main_arg1 : FVec F S50000x32x64 .f32) (main_arg2 : FVec F S50000x64 .f32) (main_arg3 : FVec F S50000x32x64 .f32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S50000x32x64 .f32 := Host.absf main_arg1
  let main_cst_0 : FVec F S_ .f32 := constant S_ .f32 0x7F800000#32
  let main_v5 : FVec F S50000x32x64 .f32 := broadcastInDim S50000x32x64 ![] bcast_S_S50000x32x64 main_cst_0
  let main_v6 : IVec S50000x32x64 1 := cmpf .olt main_v4 main_v5
  let main_c_1 : IVec S_ 1 := constantI S_ 1 1#1
  let main_v7 : IVec S_ 1 := (fun x v => Host.reduce IntOp.andi x v reducesTo_S50000x32x64_S_d0_1_2 h_S_) main_v6 main_c_1
  let main_v8 : IVec S_ 1 := andi main_v3 main_v7
  let main_v9 : FVec F S50000x64 .f32 := Host.absf main_arg2
  let main_cst_2 : FVec F S_ .f32 := constant S_ .f32 0x7F800000#32
  let main_v10 : FVec F S50000x64 .f32 := broadcastInDim S50000x64 ![] bcast_S_S50000x64 main_cst_2
  let main_v11 : IVec S50000x64 1 := cmpf .olt main_v9 main_v10
  let main_c_3 : IVec S_ 1 := constantI S_ 1 1#1
  let main_v12 : IVec S_ 1 := (fun x v => Host.reduce IntOp.andi x v reducesTo_S50000x64_S_d0_1 h_S_) main_v11 main_c_3
  let main_v13 : IVec S_ 1 := andi main_v8 main_v12
  let main_v14 : FVec F S50000x32x64 .f32 := Host.absf main_arg3
  let main_cst_4 : FVec F S_ .f32 := constant S_ .f32 0x7F800000#32
  let main_v15 : FVec F S50000x32x64 .f32 := broadcastInDim S50000x32x64 ![] bcast_S_S50000x32x64 main_cst_4
  let main_v16 : IVec S50000x32x64 1 := cmpf .olt main_v14 main_v15
  fn_part1 (F := F) main_v13 main_v16
-- ==== Kernel.lean ====
abbrev S50000x64 : Shape := ⟨2, ![50000, 64]⟩
abbrev S50000x32x64 : Shape := ⟨3, ![50000, 32, 64]⟩
abbrev S400x64 : Shape := ⟨2, ![400, 64]⟩
abbrev S400x32x64 : Shape := ⟨3, ![400, 32, 64]⟩
abbrev S400x1x64 : Shape := ⟨3, ![400, 1, 64]⟩

abbrev nBuf : Space → Nat
  | .hbm => 6
  | .vmem => 12
  | .smem => 0
  | _ => 0

abbrev bufTy : (tb : Table) → Fin (tcTables nBuf tb) → BufTy
  | .hbm, ⟨0, _⟩ => ⟨S50000x64, .f32⟩
  | .hbm, ⟨1, _⟩ => ⟨S50000x32x64, .f32⟩
  | .hbm, ⟨2, _⟩ => ⟨S50000x64, .f32⟩
  | .hbm, ⟨3, _⟩ => ⟨S50000x32x64, .f32⟩
  | .hbm, ⟨4, _⟩ => ⟨S50000x64, .f32⟩
  | .hbm, ⟨5, _⟩ => ⟨S50000x32x64, .f32⟩
  | .local _ .vmem, ⟨0, _⟩ => ⟨S400x64, .f32⟩
  | .local _ .vmem, ⟨1, _⟩ => ⟨S400x64, .f32⟩
  | .local _ .vmem, ⟨2, _⟩ => ⟨S400x32x64, .f32⟩
  | .local _ .vmem, ⟨3, _⟩ => ⟨S400x32x64, .f32⟩
  | .local _ .vmem, ⟨4, _⟩ => ⟨S400x64, .f32⟩
  | .local _ .vmem, ⟨5, _⟩ => ⟨S400x64, .f32⟩
  | .local _ .vmem, ⟨6, _⟩ => ⟨S400x32x64, .f32⟩
  | .local _ .vmem, ⟨7, _⟩ => ⟨S400x32x64, .f32⟩
  | .local _ .vmem, ⟨8, _⟩ => ⟨S400x64, .f32⟩
  | .local _ .vmem, ⟨9, _⟩ => ⟨S400x64, .f32⟩
  | .local _ .vmem, ⟨10, _⟩ => ⟨S400x32x64, .f32⟩
  | .local _ .vmem, ⟨11, _⟩ => ⟨S400x32x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨1, ![125], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S400x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S400x32x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S400x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S400x32x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S400x64 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S400x32x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  inb_S400x64_S400x64_0_0 : ∀ a, (![0, 0] : Fin 2 → Nat) a + S400x64.size a ≤ S400x64.size a
  h_S400x64 : 0 < S400x64.numel
  inb_S400x32x64_S400x32x64_0_0_0 : ∀ a, (![0, 0, 0] : Fin 3 → Nat) a + S400x32x64.size a ≤ S400x32x64.size a
  h_S400x32x64 : 0 < S400x32x64.numel
  reduces_S400x32x64_S400x64 : S400x32x64.Reduces [1] S400x64
  shapeCasts_S400x64_S400x1x64 : S400x64.ShapeCasts S400x1x64
  broadcasts_S400x1x64_S400x32x64 : S400x1x64.Broadcasts S400x32x64
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S400x64.size a ≤ S50000x64.size a
  hwx0_0 : ∀ i : grid0.Coords, EltTy.bits .f32 = 32 ∨ (Rect.block (s := S50000x64) S400x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S400x32x64.size a ≤ S50000x32x64.size a
  hwx0_1 : ∀ i : grid0.Coords, EltTy.bits .f32 = 32 ∨ (Rect.block (s := S50000x32x64) S400x32x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S400x64.size a ≤ S50000x64.size a
  hwx0_2 : ∀ i : grid0.Coords, EltTy.bits .f32 = 32 ∨ (Rect.block (s := S50000x64) S400x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S400x32x64.size a ≤ S50000x32x64.size a
  hwx0_3 : ∀ i : grid0.Coords, EltTy.bits .f32 = 32 ∨ (Rect.block (s := S50000x32x64) S400x32x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S400x64.size a ≤ S50000x64.size a
  hwx0_4 : ∀ i : grid0.Coords, EltTy.bits .f32 = 32 ∨ (Rect.block (s := S50000x64) S400x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x32x64.size a ≤ S50000x32x64.size a
  hwx0_5 : ∀ i : grid0.Coords, EltTy.bits .f32 = 32 ∨ (Rect.block (s := S50000x32x64) S400x32x64.size (cc0_transform_5 i) (hinb0_5 i)).WholeWords (EltTy.packing .f32)

variable [Facts₀]

abbrev win0_0 : Pipeline.Window sig grid0 :=
  Pipeline.Window.ofSpec (Memref.whole main_arg0) S400x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S400x32x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S400x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S400x32x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v0_0) S400x64.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v0_1) S400x32x64.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S50000x64 : Shape := ⟨2, ![50000, 64]⟩
abbrev S50000x32x64 : Shape := ⟨3, ![50000, 32, 64]⟩
abbrev S_ : Shape := ⟨0, ![]⟩
abbrev S50000x1x64 : Shape := ⟨3, ![50000, 1, 64]⟩

abbrev nBuf : Space → Nat
  | .hbm => 24
  | .vmem => 0
  | .smem => 0
  | _ => 0

abbrev bufTy : (tb : Table) → Fin (tcTables nBuf tb) → BufTy
  | .hbm, ⟨0, _⟩ => ⟨S50000x64, .f32⟩
  | .hbm, ⟨1, _⟩ => ⟨S50000x32x64, .f32⟩
  | .hbm, ⟨2, _⟩ => ⟨S50000x64, .f32⟩
  | .hbm, ⟨3, _⟩ => ⟨S50000x32x64, .f32⟩
  | .hbm, ⟨4, _⟩ => ⟨S_, .f32⟩
  | .hbm, ⟨5, _⟩ => ⟨S50000x64, .f32⟩
  | .hbm, ⟨6, _⟩ => ⟨S50000x64, .f32⟩
  | .hbm, ⟨7, _⟩ => ⟨S50000x1x64, .f32⟩
  | .hbm, ⟨8, _⟩ => ⟨S50000x32x64, .f32⟩
  | .hbm, ⟨9, _⟩ => ⟨S50000x32x64, .f32⟩
  | .hbm, ⟨10, _⟩ => ⟨S_, .f32⟩
  | .hbm, ⟨11, _⟩ => ⟨S50000x64, .f32⟩
  | .hbm, ⟨12, _⟩ => ⟨S50000x64, .f32⟩
  | .hbm, ⟨13, _⟩ => ⟨S_, .f32⟩
  | .hbm, ⟨14, _⟩ => ⟨S50000x64, .f32⟩
  | .hbm, ⟨15, _⟩ => ⟨S50000x64, .f32⟩
  | .hbm, ⟨16, _⟩ => ⟨S50000x64, .f32⟩
  | .hbm, ⟨17, _⟩ => ⟨S_, .f32⟩
  | .hbm, ⟨18, _⟩ => ⟨S50000x32x64, .f32⟩
  | .hbm, ⟨19, _⟩ => ⟨S50000x32x64, .f32⟩
  | .hbm, ⟨20, _⟩ => ⟨S_, .f32⟩
  | .hbm, ⟨21, _⟩ => ⟨S50000x32x64, .f32⟩
  | .hbm, ⟨22, _⟩ => ⟨S50000x32x64, .f32⟩
  | .hbm, ⟨23, _⟩ => ⟨S50000x32x64, .f32⟩
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst_0 : Ref sig .tc := ⟨.hbm, 10, rfl⟩
abbrev main_v5 : Ref sig .tc := ⟨.hbm, 11, rfl⟩
abbrev main_v6 : Ref sig .tc := ⟨.hbm, 12, rfl⟩
abbrev main_cst_1 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩

abbrev nD : Nat := 1
abbrev τ : Topo := Topo.v7x

variable {F : FTy → Type} [FloatOps F]

class Facts₀ : Prop where
  reducesTo_S50000x32x64_S50000x64_d1 : S50000x32x64.ReducesTo [1] S50000x64
  h_S_ : 0 < S_.numel
  bcast_S50000x64_S50000x1x64_0_2 : S50000x64.BroadcastsInDim S50000x1x64 (![0, 2] : Fin 2 → Fin S50000x1x64.rank)
  bcast_S50000x1x64_S50000x32x64_0_1_2 : S50000x1x64.BroadcastsInDim S50000x32x64 (![0, 1, 2] : Fin 3 → Fin S50000x32x64.rank)
  bcast_S_S50000x64 : S_.BroadcastsInDim S50000x64 (![] : Fin 0 → Fin S50000x64.rank)
  bcast_S_S50000x32x64 : S_.BroadcastsInDim S50000x32x64 (![] : Fin 0 → Fin S50000x32x64.rank)

variable [Facts₀]

class Facts : Prop extends Facts₀ where

variable [Facts]
-- ==== Proof.Blend.lean ====
/-
  The function both programs compute, stated once, over the extended reals.

  A graph of 50000 nodes, each with 32 neighbour slots and 64 features. With the two blend weights
  `keep` (the f32 word 0x3F666666) and `mix` (the f32 word 0x3DCCCCCD), each read as the exact
  extended real its word denotes (never evaluated: both programs carry the same two words):

    node  (n, d)    ↦  keep · (x[n, d] + Σ_k agg[n, k, d]) + mix · h[n, d]
    slot  (n, k, d) ↦  keep · (agg[n, k, d] + x[n, d])     + mix · nbr[n, k, d]

  The sum over the 32 slots is a `Finset` sum over `Fin 32`; nothing here needs the inputs finite:
  the two programs apply the same operations in the same order, and a finite sum of extended reals
  does not depend on how its terms are enumerated.
-/
import Idealize.ShloMosaic.PureOps.Ideal
import Idealize.ShloMosaic.Lib.ValueIdx

noncomputable section

namespace Cert.Blend

open Idealize.ShloMosaic Idealize.ShloMosaic.ValueIdx

/-- The node-feature shape [50000, 64]. -/
abbrev Nodes : Shape := ⟨2, ![50000, 64]⟩
/-- The neighbour-slot shape [50000, 32, 64]. -/
abbrev Slots : Shape := ⟨3, ![50000, 32, 64]⟩

/-- The weight on the aggregated feature: the extended real the f32 word 0x3F666666 denotes. -/
abbrev keep : EReal := Ideal.ofBits .f32 0x3F666666#32
/-- The weight on the initial feature: the extended real the f32 word 0x3DCCCCCD denotes. -/
abbrev mix : EReal := Ideal.ofBits .f32 0x3DCCCCCD#32

/-- A node's feature `d`: its own feature plus the sum of its 32 slots' features, blended with its initial feature. -/
def nodeBlend (x h : FVec Ideal Nodes .f32) (agg : FVec Ideal Slots .f32) : FVec Ideal Nodes .f32 :=
  fun i => keep * (x i + ∑ k : Fin 32, agg (ix3 (i 0) k (i 1))) + mix * h i

/-- A slot's feature `d`: the slot's feature plus its node's own feature, blended with the slot's initial feature. -/
def slotBlend (x : FVec Ideal Nodes .f32) (agg nbr : FVec Ideal Slots .f32) : FVec Ideal Slots .f32 :=
  fun i => keep * (agg i + x (ix2 (i 0) (i 2))) + mix * nbr i

/-- The node blend at explicit coordinates. -/
theorem nodeBlend_at (x h : FVec Ideal Nodes .f32) (agg : FVec Ideal Slots .f32) (n : Fin 50000) (d : Fin 64) :
    nodeBlend x h agg (ix2 n d) = keep * (x (ix2 n d) + ∑ k : Fin 32, agg (ix3 n k d)) + mix * h (ix2 n d) := rfl

/-- The slot blend at explicit coordinates. -/
theorem slotBlend_at (x : FVec Ideal Nodes .f32) (agg nbr : FVec Ideal Slots .f32) (n : Fin 50000) (k : Fin 32) (d : Fin 64) :
    slotBlend x agg nbr (ix3 n k d) = keep * (agg (ix3 n k d) + x (ix2 n d)) + mix * nbr (ix3 n k d) := rfl

end Cert.Blend

end
-- ==== Proof.RefBlend.lean ====
/-
  The reference computes the two blends.

  Its node result is built stage by stage as  w₀ · (x + (0 + Σ_k agg)) + w₁ · h  with the sum a host
  reduction over the slot axis from the initial value zero, and its slot result as
  w₀ · (agg + x re-read along the slot axis) + w₁ · nbr, the node feature broadcast in two steps
  ([n, d] → [n, 1, d] → [n, k, d]). Read at an index, each stage is the stage below at an index;
  the zero initial value drops out of the sum, and the broadcast reads the node's own entry (n, d).
-/
import proofs.«141088_j81192061764219_1_alg».proof.Proof.Gen.ReferenceIdeal.Read
import proofs.«141088_j81192061764219_1_alg».proof.Proof.Blend

noncomputable section

namespace Cert.RefBlend

open Cert.ReferenceIdeal Cert.ReferenceIdeal.Read Cert.Blend
open Idealize.ShloMosaic Idealize.ShloMosaic.ValueIdx

/-- The slot the reference's reduction reads at node-feature index `i` and slot `k` is `(i 0, k, i 1)`. -/
theorem slot_of_node (i : S50000x64.Idx) (k : Fin 32) : idx_main_v0 i k = ix3 (i 0) k (i 1) :=
  funext fun a => by match a with | ⟨0, _⟩ => rfl | ⟨1, _⟩ => rfl | ⟨2, _⟩ => rfl

/-- The node entry the two-step broadcast reads at slot index `i` is `(i 0, i 2)`. -/
theorem node_of_slot (i : S50000x32x64.Idx) : idx_main_v2 (idx_main_v3 i) = ix2 (i 0) (i 2) :=
  funext fun a => by match a with | ⟨0, _⟩ => rfl | ⟨1, _⟩ => rfl

/-- The reference's node result is `nodeBlend`. -/
theorem node_eq (x h : FVec Ideal S50000x64 .f32) (agg : FVec Ideal S50000x32x64 .f32) :
    val_main_v9 (F := Ideal) x agg h = nodeBlend x h agg := by
  funext i
  rw [val_main_v9_apply, val_main_v6_apply, val_main_v8_apply, val_main_v5_apply, val_main_v7_apply,
    val_main_v1_apply, val_main_v0_apply, val_main_cst_0_apply, val_main_cst_1_apply, val_main_cst_apply]
  simp only [Ideal.addf_def, Ideal.mulf_def, Ideal.ofBits_def, Ideal.ofBits_zero_f32, zero_add, slot_of_node]
  rfl

/-- The reference's slot result is `slotBlend`. -/
theorem slot_eq (x : FVec Ideal S50000x64 .f32) (agg nbr : FVec Ideal S50000x32x64 .f32) :
    val_main_v14 (F := Ideal) x agg nbr = slotBlend x agg nbr := by
  funext i
  rw [val_main_v14_apply, val_main_v11_apply, val_main_v13_apply, val_main_v10_apply, val_main_v12_apply,
    val_main_v4_apply, val_main_v3_apply, val_main_v2_apply, val_main_cst_2_apply, val_main_cst_3_apply]
  simp only [Ideal.addf_def, Ideal.mulf_def, Ideal.ofBits_def, node_of_slot]
  rfl

end Cert.RefBlend

end
-- ==== Proof.BlockBlend.lean ====
/-
  What the kernel's body stores for one block of 400 nodes, read at an index.

  The body loads the node block `x`, `h` : [400, 64] and the slot blocks `agg`, `nbr` : [400, 32, 64] and stores two
  values. The node value is pointwise but for one lane reduction over the slot axis (from the zero word, so the
  reduction is the plain sum of the 32 slots); the slot value is pointwise but for the node block re-laid along
  the slot axis (a shape cast [400, 64] → [400, 1, 64], then a broadcast to [400, 32, 64]), which at (p, k, d)
  reads the node entry (p, d). Both are stated for arbitrary vectors of the blocks' shapes and explicit coordinates.
-/
import proofs.«141088_j81192061764219_1_alg».proof.Proof.Gen.KernelIdeal.Skeleton
import proofs.«141088_j81192061764219_1_alg».proof.Proof.Blend
import Idealize.ShloMosaic.PureOps.Ideal.Laws
import Idealize.ShloMosaic.Lib.Pipeline.Value

noncomputable section

namespace Cert.BlockBlend

open Cert.KernelIdeal Cert.KernelIdeal.Gen Cert.Blend
open Idealize.ShloMosaic Idealize.ShloMosaic.TcCoe Idealize.ShloMosaic.ValueIdx

/-- The node value at (p, d): the blend of the node's own feature plus the sum of its 32 slots with its initial feature. -/
theorem node_at (x h : Vec Ideal S400x64 .f32) (agg : Vec Ideal S400x32x64 .f32) (p : Fin 400) (d : Fin 64) :
    k0_pay1 (F := Ideal) x agg h (ix2 p d)
      = keep * (x (ix2 p d) + ∑ k : Fin 32, agg (ix3 p k d)) + mix * h (ix2 p d) := by
  unfold k0_pay1
  show keep * (x (ix2 p d) + multiReduction (F := Ideal) .add [1] S400x64 agg 0x00000000#32 reduces_S400x32x64_S400x64 (.inl rfl) rfl (ix2 p d))
      + mix * h (ix2 p d) = _
  refine congrArg (fun s => keep * (x (ix2 p d) + s) + mix * h (ix2 p d)) ?_
  refine (Ideal.multiReduction_add_single agg 0x00000000#32 reduces_S400x32x64_S400x64 (.inl rfl) rfl (ix2 p d)).trans ?_
  exact Finset.sum_congr rfl fun k _ => congrArg agg (funext fun a => Fin.ext (by
    match a with | ⟨0, _⟩ => rfl | ⟨1, _⟩ => rfl | ⟨2, _⟩ => rfl))

/-- The slot value at (p, k, d): the blend of the slot's feature plus its node's own feature with the slot's initial feature. -/
theorem slot_at (x : Vec Ideal S400x64 .f32) (agg nbr : Vec Ideal S400x32x64 .f32) (p : Fin 400) (k : Fin 32) (d : Fin 64) :
    k0_pay2 (F := Ideal) x agg nbr (ix3 p k d)
      = keep * (agg (ix3 p k d) + x (ix2 p d)) + mix * nbr (ix3 p k d) := by
  unfold k0_pay2
  show keep * (agg (ix3 p k d)
        + broadcastTo S400x32x64 (shapeCast S400x1x64 x shapeCasts_S400x64_S400x1x64) broadcasts_S400x1x64_S400x32x64 (ix3 p k d))
      + mix * nbr (ix3 p k d) = _
  refine congrArg (fun s => keep * (agg (ix3 p k d) + s) + mix * nbr (ix3 p k d)) ?_
  refine (broadcastTo_apply _ broadcasts_S400x1x64_S400x32x64 (ix3 p k d) (ix3 p (0 : Fin 1) d) (fun a => by
    match a with
    | ⟨0, _⟩ => show p.val = if (400 : Nat) = 1 then 0 else p.val; rw [if_neg (by decide)]
    | ⟨1, _⟩ => show 0 = if (1 : Nat) = 1 then 0 else k.val; rw [if_pos rfl]
    | ⟨2, _⟩ => show d.val = if (64 : Nat) = 1 then 0 else d.val; rw [if_neg (by decide)])).trans ?_
  exact shapeCast_apply x shapeCasts_S400x64_S400x1x64 (ix3 p (0 : Fin 1) d) (ix2 p d) (by
    rw [Shape.rowMajor_val_two, Shape.rowMajor_val_three]
    show p.val * 64 + d.val = (p.val * 1 + 0) * 64 + d.val
    omega)

end Cert.BlockBlend

end
-- ==== Proof.ArrayBlend.lean ====
/-
  From blocks to arrays: after the kernel's run each output array is the blend of the whole argument arrays.

  The grid has 125 points; at point `t` every window's block is block `t` along the node axis (rows
  400·t … 400·t + 399) and the whole extent of the other axes. So entry (p, d) of a node block is entry
  (400·t + p, d) of its array, and entry (p, k, d) of a slot block is entry (400·t + p, k, d). What point `t`
  writes back is therefore block `t` of the blend of the arrays (the block's arithmetic read at an index), the 125
  blocks cover each output array (row `r` lies in block `r / 400`), and an array whose every flushed block is a block
  of one function ends equal to that function.
-/
import proofs.«141088_j81192061764219_1_alg».proof.Proof.Gen.KernelIdeal.Value
import proofs.«141088_j81192061764219_1_alg».proof.Proof.BlockBlend

noncomputable section

namespace Cert.ArrayBlend

open Cert.KernelIdeal Cert.KernelIdeal.Gen Cert.Blend Cert.BlockBlend
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-! ## The argument arrays as the region finds them, at their literal types -/

abbrev xs (c : Dev nD) : FVec Ideal S50000x64 .f32 := V m c main_arg0
abbrev aggs (c : Dev nD) : FVec Ideal S50000x32x64 .f32 := V m c main_arg1
abbrev hs (c : Dev nD) : FVec Ideal S50000x64 .f32 := V m c main_arg2
abbrev nbrs (c : Dev nD) : FVec Ideal S50000x32x64 .f32 := V m c main_arg3

/-! ## Where a block sits in its array -/

theorem origin2 : (![0, 0] : Fin 2 → Nat) = fun _ => 0 := funext fun a => by fin_cases a <;> rfl
theorem origin3 : (![0, 0, 0] : Fin 3 → Nat) = fun _ => 0 := funext fun a => by fin_cases a <;> rfl

/-- At point `t` every window's block index is `t` on the node axis and `0` on the others (decided over the 125 points). -/
theorem block_of_point : ∀ t : Fin cfg0.N,
    win0_0.index t (0 : Fin 2) = t.val ∧ win0_0.index t (1 : Fin 2) = 0
    ∧ win0_1.index t (0 : Fin 3) = t.val ∧ win0_1.index t (1 : Fin 3) = 0 ∧ win0_1.index t (2 : Fin 3) = 0
    ∧ win0_2.index t (0 : Fin 2) = t.val ∧ win0_2.index t (1 : Fin 2) = 0
    ∧ win0_3.index t (0 : Fin 3) = t.val ∧ win0_3.index t (1 : Fin 3) = 0 ∧ win0_3.index t (2 : Fin 3) = 0
    ∧ win0_4.index t (0 : Fin 2) = t.val ∧ win0_4.index t (1 : Fin 2) = 0
    ∧ win0_5.index t (0 : Fin 3) = t.val ∧ win0_5.index t (1 : Fin 3) = 0 ∧ win0_5.index t (2 : Fin 3) = 0 :=
  (by decide +kernel : ∀ t : Fin grid0.N, _)

/-- Row `p` of block `t` is row `400·t + p` of the array. -/
def row (t : Fin cfg0.N) (p : Fin 400) : Fin 50000 :=
  ⟨t.val * 400 + p.val, by have h : t.val < grid0.N := t.isLt; rw [N_0] at h; have := p.isLt; omega⟩

theorem emb_x (t : Fin cfg0.N) (p : Fin 400) (d : Fin 64) :
    ((cfg0.win 0).blk t).view.emb (ix2 p d) = ix2 (row t p) d := by
  obtain ⟨e00, e01, -⟩ := block_of_point t
  funext a; apply Fin.ext
  match a with
  | ⟨0, _⟩ => show win0_0.index t (0 : Fin 2) * 400 + 1 * p.val = t.val * 400 + p.val; omega
  | ⟨1, _⟩ => show win0_0.index t (1 : Fin 2) * 64 + 1 * d.val = d.val; omega

theorem emb_agg (t : Fin cfg0.N) (p : Fin 400) (k : Fin 32) (d : Fin 64) :
    ((cfg0.win 1).blk t).view.emb (ix3 p k d) = ix3 (row t p) k d := by
  obtain ⟨-, -, e10, e11, e12, -⟩ := block_of_point t
  funext a; apply Fin.ext
  match a with
  | ⟨0, _⟩ => show win0_1.index t (0 : Fin 3) * 400 + 1 * p.val = t.val * 400 + p.val; omega
  | ⟨1, _⟩ => show win0_1.index t (1 : Fin 3) * 32 + 1 * k.val = k.val; omega
  | ⟨2, _⟩ => show win0_1.index t (2 : Fin 3) * 64 + 1 * d.val = d.val; omega

theorem emb_h (t : Fin cfg0.N) (p : Fin 400) (d : Fin 64) :
    ((cfg0.win 2).blk t).view.emb (ix2 p d) = ix2 (row t p) d := by
  obtain ⟨-, -, -, -, -, e20, e21, -⟩ := block_of_point t
  funext a; apply Fin.ext
  match a with
  | ⟨0, _⟩ => show win0_2.index t (0 : Fin 2) * 400 + 1 * p.val = t.val * 400 + p.val; omega
  | ⟨1, _⟩ => show win0_2.index t (1 : Fin 2) * 64 + 1 * d.val = d.val; omega

theorem emb_nbr (t : Fin cfg0.N) (p : Fin 400) (k : Fin 32) (d : Fin 64) :
    ((cfg0.win 3).blk t).view.emb (ix3 p k d) = ix3 (row t p) k d := by
  obtain ⟨-, -, -, -, -, -, -, e30, e31, e32, -⟩ := block_of_point t
  funext a; apply Fin.ext
  match a with
  | ⟨0, _⟩ => show win0_3.index t (0 : Fin 3) * 400 + 1 * p.val = t.val * 400 + p.val; omega
  | ⟨1, _⟩ => show win0_3.index t (1 : Fin 3) * 32 + 1 * k.val = k.val; omega
  | ⟨2, _⟩ => show win0_3.index t (2 : Fin 3) * 64 + 1 * d.val = d.val; omega

theorem emb_node (t : Fin cfg0.N) (p : Fin 400) (d : Fin 64) :
    ((cfg0.win 4).blk t).view.emb (ix2 p d) = ix2 (row t p) d := by
  obtain ⟨-, -, -, -, -, -, -, -, -, -, e40, e41, -⟩ := block_of_point t
  funext a; apply Fin.ext
  match a with
  | ⟨0, _⟩ => show win0_4.index t (0 : Fin 2) * 400 + 1 * p.val = t.val * 400 + p.val; omega
  | ⟨1, _⟩ => show win0_4.index t (1 : Fin 2) * 64 + 1 * d.val = d.val; omega

theorem emb_slot (t : Fin cfg0.N) (p : Fin 400) (k : Fin 32) (d : Fin 64) :
    ((cfg0.win 5).blk t).view.emb (ix3 p k d) = ix3 (row t p) k d := by
  obtain ⟨-, -, -, -, -, -, -, -, -, -, -, -, e50, e51, e52⟩ := block_of_point t
  funext a; apply Fin.ext
  match a with
  | ⟨0, _⟩ => show win0_5.index t (0 : Fin 3) * 400 + 1 * p.val = t.val * 400 + p.val; omega
  | ⟨1, _⟩ => show win0_5.index t (1 : Fin 3) * 32 + 1 * k.val = k.val; omega
  | ⟨2, _⟩ => show win0_5.index t (2 : Fin 3) * 64 + 1 * d.val = d.val; omega

/-! ## What each point writes back -/

/-- Point `t` writes back block `t` of the node blend of the arrays. -/
theorem node_flushed (c : Dev nD) (t : Fin cfg0.N) :
    (dats m 0 c).flushed 4 t
      = ((cfg0.win 4).blk t).view.read (Elt Ideal) (nodeBlend (xs m c) (hs m c) (aggs m c)) := by
  rw [Value.flushed4]
  unfold out0_4
  rw [View.canon_unit_zero origin2]
  simp only [View.ld_unit_zero (S := S400x64) origin2, View.ld_unit_zero (S := S400x32x64) origin3]
  funext j
  obtain ⟨p, d, rfl⟩ : ∃ (p : Fin 400) (d : Fin 64), j = ix2 p d := ⟨j 0, j 1, eq_ix2 j⟩
  show k0_pay1 (F := Ideal) (iblk m c 0 t) (iblk m c 1 t) (iblk m c 2 t) (ix2 p d)
    = nodeBlend (xs m c) (hs m c) (aggs m c) (((cfg0.win 4).blk t).view.emb (ix2 p d))
  rw [emb_node t p d, nodeBlend_at]
  refine (node_at (iblk m c 0 t) (iblk m c 2 t) (iblk m c 1 t) p d).trans ?_
  show keep * (xs m c (((cfg0.win 0).blk t).view.emb (ix2 p d))
        + ∑ k : Fin 32, aggs m c (((cfg0.win 1).blk t).view.emb (ix3 p k d)))
      + mix * hs m c (((cfg0.win 2).blk t).view.emb (ix2 p d)) = _
  rw [emb_x t p d, emb_h t p d]
  refine congrArg (fun s => keep * (xs m c (ix2 (row t p) d) + s) + mix * hs m c (ix2 (row t p) d)) ?_
  exact Finset.sum_congr rfl fun k _ => congrArg (aggs m c) (emb_agg t p k d)

/-- Point `t` writes back block `t` of the slot blend of the arrays. -/
theorem slot_flushed (c : Dev nD) (t : Fin cfg0.N) :
    (dats m 0 c).flushed 5 t
      = ((cfg0.win 5).blk t).view.read (Elt Ideal) (slotBlend (xs m c) (aggs m c) (nbrs m c)) := by
  rw [Value.flushed5]
  unfold out0_5
  rw [View.canon_unit_zero origin3]
  simp only [View.ld_unit_zero (S := S400x64) origin2, View.ld_unit_zero (S := S400x32x64) origin3]
  funext j
  obtain ⟨p, k, d, rfl⟩ : ∃ (p : Fin 400) (k : Fin 32) (d : Fin 64), j = ix3 p k d := ⟨j 0, j 1, j 2, eq_ix3 j⟩
  show k0_pay2 (F := Ideal) (iblk m c 0 t) (iblk m c 1 t) (iblk m c 3 t) (ix3 p k d)
    = slotBlend (xs m c) (aggs m c) (nbrs m c) (((cfg0.win 5).blk t).view.emb (ix3 p k d))
  rw [emb_slot t p k d, slotBlend_at]
  refine (slot_at (iblk m c 0 t) (iblk m c 1 t) (iblk m c 3 t) p k d).trans ?_
  show keep * (aggs m c (((cfg0.win 1).blk t).view.emb (ix3 p k d))
        + xs m c (((cfg0.win 0).blk t).view.emb (ix2 p d)))
      + mix * nbrs m c (((cfg0.win 3).blk t).view.emb (ix3 p k d)) = _
  rw [emb_x t p d, emb_agg t p k d, emb_nbr t p k d]

/-! ## The blocks cover the arrays -/

/-- An index of the node array is in point `t`'s block iff each coordinate is in the block's range on its axis. -/
theorem node_mem_blk (t : Fin cfg0.N) (i : S50000x64.Idx) :
    i ∈ ((cfg0.win 4).blk t).view.set
      ↔ ∀ a : Fin 2, win0_4.index t a * S400x64.size a ≤ (i a).val ∧ (i a).val < win0_4.index t a * S400x64.size a + S400x64.size a := by
  show i ∈ ((View.whole main_v0_0).slice (win0_4.rect t)).set ↔ _
  rw [View.set_slice_whole, Rect.mem_set_unit]
  exact Iff.rfl

/-- An index of the slot array is in point `t`'s block iff each coordinate is in the block's range on its axis. -/
theorem slot_mem_blk (t : Fin cfg0.N) (i : S50000x32x64.Idx) :
    i ∈ ((cfg0.win 5).blk t).view.set
      ↔ ∀ a : Fin 3, win0_5.index t a * S400x32x64.size a ≤ (i a).val ∧ (i a).val < win0_5.index t a * S400x32x64.size a + S400x32x64.size a := by
  show i ∈ ((View.whole main_v0_1).slice (win0_5.rect t)).set ↔ _
  rw [View.set_slice_whole, Rect.mem_set_unit]
  exact Iff.rfl

/-- Row `r` of the node array lies in the block of point `r / 400`. -/
theorem node_cover (i : S50000x64.Idx) :
    ∃ t : Fin cfg0.N, (cfg0.win 4).flush t = true ∧ i ∈ ((cfg0.win 4).blk t).view.set := by
  have hi0 : (i 0).val < 50000 := (i 0).isLt
  have hi1 : (i 1).val < 64 := (i 1).isLt
  have ht : (i 0).val / 400 < cfg0.N := by show (i 0).val / 400 < grid0.N; rw [N_0]; omega
  obtain ⟨-, -, -, -, -, -, -, -, -, -, e40, e41, -⟩ := block_of_point ⟨(i 0).val / 400, ht⟩
  have e40' : win0_4.index ⟨(i 0).val / 400, ht⟩ (0 : Fin 2) = (i 0).val / 400 := e40
  refine ⟨⟨(i 0).val / 400, ht⟩, flush0_4 _, ?_⟩
  rw [node_mem_blk]
  intro a
  match a with
  | ⟨0, _⟩ =>
    show win0_4.index ⟨(i 0).val / 400, ht⟩ (0 : Fin 2) * 400 ≤ (i 0).val
      ∧ (i 0).val < win0_4.index ⟨(i 0).val / 400, ht⟩ (0 : Fin 2) * 400 + 400
    omega
  | ⟨1, _⟩ =>
    show win0_4.index ⟨(i 0).val / 400, ht⟩ (1 : Fin 2) * 64 ≤ (i 1).val
      ∧ (i 1).val < win0_4.index ⟨(i 0).val / 400, ht⟩ (1 : Fin 2) * 64 + 64
    omega

/-- Row `r` of the slot array lies in the block of point `r / 400`. -/
theorem slot_cover (i : S50000x32x64.Idx) :
    ∃ t : Fin cfg0.N, (cfg0.win 5).flush t = true ∧ i ∈ ((cfg0.win 5).blk t).view.set := by
  have hi0 : (i 0).val < 50000 := (i 0).isLt
  have hi1 : (i 1).val < 32 := (i 1).isLt
  have hi2 : (i 2).val < 64 := (i 2).isLt
  have ht : (i 0).val / 400 < cfg0.N := by show (i 0).val / 400 < grid0.N; rw [N_0]; omega
  obtain ⟨-, -, -, -, -, -, -, -, -, -, -, -, e50, e51, e52⟩ := block_of_point ⟨(i 0).val / 400, ht⟩
  have e50' : win0_5.index ⟨(i 0).val / 400, ht⟩ (0 : Fin 3) = (i 0).val / 400 := e50
  refine ⟨⟨(i 0).val / 400, ht⟩, flush0_5 _, ?_⟩
  rw [slot_mem_blk]
  intro a
  match a with
  | ⟨0, _⟩ =>
    show win0_5.index ⟨(i 0).val / 400, ht⟩ (0 : Fin 3) * 400 ≤ (i 0).val
      ∧ (i 0).val < win0_5.index ⟨(i 0).val / 400, ht⟩ (0 : Fin 3) * 400 + 400
    omega
  | ⟨1, _⟩ =>
    show win0_5.index ⟨(i 0).val / 400, ht⟩ (1 : Fin 3) * 32 ≤ (i 1).val
      ∧ (i 1).val < win0_5.index ⟨(i 0).val / 400, ht⟩ (1 : Fin 3) * 32 + 32
    omega
  | ⟨2, _⟩ =>
    show win0_5.index ⟨(i 0).val / 400, ht⟩ (2 : Fin 3) * 64 ≤ (i 2).val
      ∧ (i 2).val < win0_5.index ⟨(i 0).val / 400, ht⟩ (2 : Fin 3) * 64 + 64
    omega

/-! ## The arrays after the run -/

/-- The node output array ends holding the node blend of the argument arrays. -/
theorem node_final (c : Dev nD) :
    (dats m 0 c).arrAt 4 cfg0.N = nodeBlend (xs m c) (hs m c) (aggs m c) :=
  (dats m 0 c).arrAt_eq_of_cover 4 (nodeBlend (xs m c) (hs m c) (aggs m c)) (fun t _ => node_flushed m c t) node_cover

/-- The slot output array ends holding the slot blend of the argument arrays. -/
theorem slot_final (c : Dev nD) :
    (dats m 0 c).arrAt 5 cfg0.N = slotBlend (xs m c) (aggs m c) (nbrs m c) :=
  (dats m 0 c).arrAt_eq_of_cover 5 (slotBlend (xs m c) (aggs m c) (nbrs m c)) (fun t _ => slot_flushed m c t) slot_cover

/-- The kernel's run: both results at the blends of the arguments as launched, the arguments unchanged. -/
theorem run : θ_run defs (onTc (τ := τ) (main (F := Ideal))) ⟨m, fun _ => 0, ρ⟩ fun r => ∀ c : Dev nD,
      r.2.mem ((c : Thread nD τ).loc main_v0_0)
        = nodeBlend (m ((c : Thread nD τ).loc main_arg0)) (m ((c : Thread nD τ).loc main_arg2)) (m ((c : Thread nD τ).loc main_arg1))
      ∧ r.2.mem ((c : Thread nD τ).loc main_v0_1)
        = slotBlend (m ((c : Thread nD τ).loc main_arg0)) (m ((c : Thread nD τ).loc main_arg1)) (m ((c : Thread nD τ).loc main_arg3))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨(h c).1.trans (node_final m c), (h c).2.1.trans (slot_final m c), (h c).2.2⟩)
    (Value.run_blocks m ρ)

end Cert.ArrayBlend

end
-- ==== Proof.lean ====
/-
  Both programs compute, for a graph of 50000 nodes with 32 neighbour slots and 64 features,

    node  (n, d)    ↦  w₀ · (x[n, d] + Σ_k agg[n, k, d]) + w₁ · h[n, d]
    slot  (n, k, d) ↦  w₀ · (agg[n, k, d] + x[n, d])     + w₁ · nbr[n, k, d]

  with the same two f32 weight words on both sides. The kernel does it 400 nodes at a time over a grid of
  125 points, summing the slots with a lane reduction from zero and re-laying the node block along the slot
  axis; the reference does it on whole arrays, summing with a host reduction from zero and broadcasting the
  node array in two steps. At the extended reals both are the functions `Blend.nodeBlend` and
  `Blend.slotBlend` (Proof/Blend.lean): the reference stage by stage (Proof/RefBlend.lean), the kernel
  block by block (Proof/BlockBlend.lean: one block's arithmetic at an index; Proof/ArrayBlend.lean: the 125
  blocks tile each output array). No law beyond re-indexing a finite sum is used, so the finiteness of the
  inputs is never opened. The idealization rewrote nothing, so `preserves` is `True`.
-/
import proofs.«141088_j81192061764219_1_alg».proof.Defs
import proofs.«141088_j81192061764219_1_alg».proof.Proof.Gen.Kernel
import proofs.«141088_j81192061764219_1_alg».proof.Proof.Gen.Kernel.Skeleton
import proofs.«141088_j81192061764219_1_alg».proof.Proof.Gen.Kernel.Launch
import proofs.«141088_j81192061764219_1_alg».proof.Proof.Gen.Kernel.Points
import proofs.«141088_j81192061764219_1_alg».proof.Proof.Gen.Kernel.Frame
import proofs.«141088_j81192061764219_1_alg».proof.Proof.Gen.KernelIdeal
import proofs.«141088_j81192061764219_1_alg».proof.Proof.Gen.KernelIdeal.Skeleton
import proofs.«141088_j81192061764219_1_alg».proof.Proof.Gen.KernelIdeal.Launch
import proofs.«141088_j81192061764219_1_alg».proof.Proof.Gen.KernelIdeal.Points
import proofs.«141088_j81192061764219_1_alg».proof.Proof.Gen.KernelIdeal.Frame
import proofs.«141088_j81192061764219_1_alg».proof.Proof.Gen.ReferenceIdeal
import proofs.«141088_j81192061764219_1_alg».proof.Proof.Gen.Pre_finite_inputs
import proofs.«141088_j81192061764219_1_alg».proof.Proof.Gen.KernelIdeal.Value
import proofs.«141088_j81192061764219_1_alg».proof.Proof.Gen.ReferenceIdeal.Run
import proofs.«141088_j81192061764219_1_alg».proof.Proof.Gen.ReferenceIdeal.Read
import proofs.«141088_j81192061764219_1_alg».proof.Proof.Blend
import proofs.«141088_j81192061764219_1_alg».proof.Proof.RefBlend
import proofs.«141088_j81192061764219_1_alg».proof.Proof.ArrayBlend
import Idealize.ShloMosaic.Adequacy
import Idealize.ShloMosaic.Init

noncomputable section

namespace Cert.Proof

open Idealize.ShloMosaic Idealize.ShloMosaic.TcCoe Idealize.SL.Sem

/-- The word-level kernel runs and leaves its arguments unchanged. -/
theorem frame_kernel : Cert.frame_Kernel := fun m ρ _ => Cert.Kernel.Gen.frame m ρ

/-- The idealized kernel runs and leaves its arguments unchanged. -/
theorem frame_kernelIdeal : Cert.frame_KernelIdeal := fun m ρ _ => Cert.KernelIdeal.Gen.frame m ρ

/-- The reference runs and leaves its arguments unchanged: its run with the two results dropped. -/
theorem frame_referenceIdeal : Cert.frame_ReferenceIdeal := fun m ρ _ =>
  (θ_run Cert.ReferenceIdeal.defs _ _).mono (fun _ h c => (h c).2.2) (Cert.ReferenceIdeal.Value.run (F := Ideal) m ρ)

/-- From memories agreeing on the four arguments, the kernel ends with the two blends of its arguments and the
    reference with its two result stages of its own, which are the same two blends. -/
theorem algebraic : Cert.algebraic_KernelIdeal_ReferenceIdeal := by
  intro m ρ m' ρ' _ hagree
  refine ⟨_, _, Cert.ArrayBlend.run m ρ, ?_⟩
  refine (θ_run Cert.ReferenceIdeal.defs _ _).mono
    (fun _ h c => ⟨(h c).1.trans ?_, (h c).2.1.trans ?_, (h c).2.2⟩)
    (Cert.ReferenceIdeal.Value.run (F := Ideal) m' ρ')
  · rw [Cert.ReferenceIdeal.Read.val_main_v9_eq, Cert.RefBlend.node_eq,
      (hagree c).1, (hagree c).2.1, (hagree c).2.2.1]
  · rw [Cert.ReferenceIdeal.Read.val_main_v14_eq, Cert.RefBlend.slot_eq,
      (hagree c).1, (hagree c).2.1, (hagree c).2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
